-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x64x4 : Shape := ⟨4, ![32, 4096, 64, 4]⟩
abbrev S_ : Shape := ⟨0, ![]⟩

class Facts : Prop where
  bcast_S_S32x4096x64x4 : S_.BroadcastsInDim S32x4096x64x4 (![] : Fin 0 → Fin S32x4096x64x4.rank)
  reducesTo_S32x4096x64x4_S_d0_1_2_3 : S32x4096x64x4.ReducesTo [0, 1, 2, 3] S_
  h_S_ : 0 < S_.numel

variable [Facts]

def fn {F : FTy → Type} [FloatOps F] (main_arg0 : FVec F S32x4096x64x4 .f32) (main_arg1 : FVec F S32x4096x64x4 .f32) : IVec S_ 1 :=
  let main_v0 : FVec F S32x4096x64x4 .f32 := Host.absf main_arg0
  let main_cst : FVec F S_ .f32 := constant S_ .f32 0x7F800000#32
  let main_v1 : FVec F S32x4096x64x4 .f32 := broadcastInDim S32x4096x64x4 ![] bcast_S_S32x4096x64x4 main_cst
  let main_v2 : IVec S32x4096x64x4 1 := cmpf .olt main_v0 main_v1
  let main_c : IVec S_ 1 := constantI S_ 1 1#1
  let main_v3 : IVec S_ 1 := (fun x v => Host.reduce IntOp.andi x v reducesTo_S32x4096x64x4_S_d0_1_2_3 h_S_) main_v2 main_c
  let main_v4 : FVec F S32x4096x64x4 .f32 := Host.absf main_arg1
  let main_cst_0 : FVec F S_ .f32 := constant S_ .f32 0x7F800000#32
  let main_v5 : FVec F S32x4096x64x4 .f32 := broadcastInDim S32x4096x64x4 ![] bcast_S_S32x4096x64x4 main_cst_0
  let main_v6 : IVec S32x4096x64x4 1 := cmpf .olt main_v4 main_v5
  let main_c_1 : IVec S_ 1 := constantI S_ 1 1#1
  let main_v7 : IVec S_ 1 := (fun x v => Host.reduce IntOp.andi x v reducesTo_S32x4096x64x4_S_d0_1_2_3 h_S_) main_v6 main_c_1
  let main_v8 : IVec S_ 1 := andi main_v3 main_v7
  main_v8
-- ==== Kernel.lean ====
abbrev S32x4096x64x4 : Shape := ⟨4, ![32, 4096, 64, 4]⟩
abbrev S1x128x64x4 : Shape := ⟨4, ![1, 128, 64, 4]⟩
abbrev S128x64x4 : Shape := ⟨3, ![128, 64, 4]⟩
abbrev S128x64x1 : Shape := ⟨3, ![128, 64, 1]⟩
abbrev S128x64 : Shape := ⟨2, ![128, 64]⟩
abbrev S1x128x64x1 : Shape := ⟨4, ![1, 128, 64, 1]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x64x4, .f32⟩
  | .hbm, ⟨1, _⟩ => ⟨S32x4096x64x4, .f32⟩
  | .hbm, ⟨2, _⟩ => ⟨S32x4096x64x4, .f32⟩
  | .local _ .vmem, ⟨0, _⟩ => ⟨S1x128x64x4, .f32⟩
  | .local _ .vmem, ⟨1, _⟩ => ⟨S1x128x64x4, .f32⟩
  | .local _ .vmem, ⟨2, _⟩ => ⟨S1x128x64x4, .f32⟩
  | .local _ .vmem, ⟨3, _⟩ => ⟨S1x128x64x4, .f32⟩
  | .local _ .vmem, ⟨4, _⟩ => ⟨S1x128x64x4, .f32⟩
  | .local _ .vmem, ⟨5, _⟩ => ⟨S1x128x64x4, .f32⟩
  | _, _ => ⟨S32x4096x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x64x4_S1x128x64x4_0_0_0_0 : ∀ a, (![0, 0, 0, 0] : Fin 4 → Nat) a + S1x128x64x4.size a ≤ S1x128x64x4.size a
  h_S1x128x64x4 : 0 < S1x128x64x4.numel
  shapeCasts_S1x128x64x4_S128x64x4 : S1x128x64x4.ShapeCasts S128x64x4
  slices_S128x64x4_o0_0_0_S128x64x1 : S128x64x4.Slices ![0, 0, 0] S128x64x1
  shapeCasts_S128x64x1_S128x64 : S128x64x1.ShapeCasts S128x64
  slices_S128x64x4_o0_0_1_S128x64x1 : S128x64x4.Slices ![0, 0, 1] S128x64x1
  slices_S128x64x4_o0_0_2_S128x64x1 : S128x64x4.Slices ![0, 0, 2] S128x64x1
  slices_S128x64x4_o0_0_3_S128x64x1 : S128x64x4.Slices ![0, 0, 3] S128x64x1
  inb_S1x128x64x4_S1x128x64x1_0_0_0_0 : ∀ a, (![0, 0, 0, 0] : Fin 4 → Nat) a + S1x128x64x1.size a ≤ S1x128x64x4.size a
  h_S1x128x64x1 : 0 < S1x128x64x1.numel
  shapeCasts_S1x128x64x1_S128x64 : S1x128x64x1.ShapeCasts S128x64
  shapeCasts_S128x64_S1x128x64x1 : S128x64.ShapeCasts S1x128x64x1
  inb_S1x128x64x4_S1x128x64x1_0_0_0_1 : ∀ a, (![0, 0, 0, 1] : Fin 4 → Nat) a + S1x128x64x1.size a ≤ S1x128x64x4.size a
  inb_S1x128x64x4_S1x128x64x1_0_0_0_2 : ∀ a, (![0, 0, 0, 2] : Fin 4 → Nat) a + S1x128x64x1.size a ≤ S1x128x64x4.size a
  inb_S1x128x64x4_S1x128x64x1_0_0_0_3 : ∀ a, (![0, 0, 0, 3] : Fin 4 → Nat) a + S1x128x64x1.size a ≤ S1x128x64x4.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x4.size a ≤ S32x4096x64x4.size a
  hwx0_0 : ∀ i : grid0.Coords, EltTy.bits .f32 = 32 ∨ (Rect.block (s := S32x4096x64x4) S1x128x64x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x4.size a ≤ S32x4096x64x4.size a
  hwx0_1 : ∀ i : grid0.Coords, EltTy.bits .f32 = 32 ∨ (Rect.block (s := S32x4096x64x4) S1x128x64x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x4.size a ≤ S32x4096x64x4.size a
  hwx0_2 : ∀ i : grid0.Coords, EltTy.bits .f32 = 32 ∨ (Rect.block (s := S32x4096x64x4) S1x128x64x4.size (cc0_transform_2 i) (hinb0_2 i)).WholeWords (EltTy.packing .f32)

variable [Facts₀]

abbrev win0_0 : Pipeline.Window sig grid0 :=
  Pipeline.Window.ofSpec (Memref.whole main_arg0) S1x128x64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x64x4 : Shape := ⟨4, ![32, 4096, 64, 4]⟩
abbrev S32x4096x64x1 : Shape := ⟨4, ![32, 4096, 64, 1]⟩
abbrev S32x4096x64 : Shape := ⟨3, ![32, 4096, 64]⟩

abbrev nBuf : Space → Nat
  | .hbm => 51
  | .vmem => 0
  | .smem => 0
  | _ => 0

abbrev bufTy : (tb : Table) → Fin (tcTables nBuf tb) → BufTy
  | .hbm, ⟨0, _⟩ => ⟨S32x4096x64x4, .f32⟩
  | .hbm, ⟨1, _⟩ => ⟨S32x4096x64x4, .f32⟩
  | .hbm, ⟨2, _⟩ => ⟨S32x4096x64x1, .f32⟩
  | .hbm, ⟨3, _⟩ => ⟨S32x4096x64, .f32⟩
  | .hbm, ⟨4, _⟩ => ⟨S32x4096x64x1, .f32⟩
  | .hbm, ⟨5, _⟩ => ⟨S32x4096x64, .f32⟩
  | .hbm, ⟨6, _⟩ => ⟨S32x4096x64x1, .f32⟩
  | .hbm, ⟨7, _⟩ => ⟨S32x4096x64, .f32⟩
  | .hbm, ⟨8, _⟩ => ⟨S32x4096x64x1, .f32⟩
  | .hbm, ⟨9, _⟩ => ⟨S32x4096x64, .f32⟩
  | .hbm, ⟨10, _⟩ => ⟨S32x4096x64x1, .f32⟩
  | .hbm, ⟨11, _⟩ => ⟨S32x4096x64, .f32⟩
  | .hbm, ⟨12, _⟩ => ⟨S32x4096x64x1, .f32⟩
  | .hbm, ⟨13, _⟩ => ⟨S32x4096x64, .f32⟩
  | .hbm, ⟨14, _⟩ => ⟨S32x4096x64x1, .f32⟩
  | .hbm, ⟨15, _⟩ => ⟨S32x4096x64, .f32⟩
  | .hbm, ⟨16, _⟩ => ⟨S32x4096x64x1, .f32⟩
  | .hbm, ⟨17, _⟩ => ⟨S32x4096x64, .f32⟩
  | .hbm, ⟨18, _⟩ => ⟨S32x4096x64, .f32⟩
  | .hbm, ⟨19, _⟩ => ⟨S32x4096x64, .f32⟩
  | .hbm, ⟨20, _⟩ => ⟨S32x4096x64, .f32⟩
  | .hbm, ⟨21, _⟩ => ⟨S32x4096x64, .f32⟩
  | .hbm, ⟨22, _⟩ => ⟨S32x4096x64, .f32⟩
  | .hbm, ⟨23, _⟩ => ⟨S32x4096x64, .f32⟩
  | .hbm, ⟨24, _⟩ => ⟨S32x4096x64, .f32⟩
  | .hbm, ⟨25, _⟩ => ⟨S32x4096x64, .f32⟩
  | .hbm, ⟨26, _⟩ => ⟨S32x4096x64, .f32⟩
  | .hbm, ⟨27, _⟩ => ⟨S32x4096x64, .f32⟩
  | .hbm, ⟨28, _⟩ => ⟨S32x4096x64, .f32⟩
  | .hbm, ⟨29, _⟩ => ⟨S32x4096x64, .f32⟩
  | .hbm, ⟨30, _⟩ => ⟨S32x4096x64, .f32⟩
  | .hbm, ⟨31, _⟩ => ⟨S32x4096x64, .f32⟩
  | .hbm, ⟨32, _⟩ => ⟨S32x4096x64, .f32⟩
  | .hbm, ⟨33, _⟩ => ⟨S32x4096x64, .f32⟩
  | .hbm, ⟨34, _⟩ => ⟨S32x4096x64, .f32⟩
  | .hbm, ⟨35, _⟩ => ⟨S32x4096x64, .f32⟩
  | .hbm, ⟨36, _⟩ => ⟨S32x4096x64, .f32⟩
  | .hbm, ⟨37, _⟩ => ⟨S32x4096x64, .f32⟩
  | .hbm, ⟨38, _⟩ => ⟨S32x4096x64, .f32⟩
  | .hbm, ⟨39, _⟩ => ⟨S32x4096x64, .f32⟩
  | .hbm, ⟨40, _⟩ => ⟨S32x4096x64, .f32⟩
  | .hbm, ⟨41, _⟩ => ⟨S32x4096x64, .f32⟩
  | .hbm, ⟨42, _⟩ => ⟨S32x4096x64, .f32⟩
  | .hbm, ⟨43, _⟩ => ⟨S32x4096x64, .f32⟩
  | .hbm, ⟨44, _⟩ => ⟨S32x4096x64, .f32⟩
  | .hbm, ⟨45, _⟩ => ⟨S32x4096x64, .f32⟩
  | .hbm, ⟨46, _⟩ => ⟨S32x4096x64x1, .f32⟩
  | .hbm, ⟨47, _⟩ => ⟨S32x4096x64x1, .f32⟩
  | .hbm, ⟨48, _⟩ => ⟨S32x4096x64x1, .f32⟩
  | .hbm, ⟨49, _⟩ => ⟨S32x4096x64x1, .f32⟩
  | .hbm, ⟨50, _⟩ => ⟨S32x4096x64x4, .f32⟩
  | _, _ => ⟨S32x4096x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S32x4096x64x4_S32x4096x64x1_0_0_0_0 : S32x4096x64x4.Slices ![0, 0, 0, 0] S32x4096x64x1
  shapeCasts_S32x4096x64x1_S32x4096x64 : S32x4096x64x1.ShapeCasts S32x4096x64
  slices_S32x4096x64x4_S32x4096x64x1_0_0_0_1 : S32x4096x64x4.Slices ![0, 0, 0, 1] S32x4096x64x1
  slices_S32x4096x64x4_S32x4096x64x1_0_0_0_2 : S32x4096x64x4.Slices ![0, 0, 0, 2] S32x4096x64x1
  slices_S32x4096x64x4_S32x4096x64x1_0_0_0_3 : S32x4096x64x4.Slices ![0, 0, 0, 3] S32x4096x64x1
  bcast_S32x4096x64_S32x4096x64x1_0_1_2 : S32x4096x64.BroadcastsInDim S32x4096x64x1 (![0, 1, 2] : Fin 3 → Fin S32x4096x64x1.rank)
  concatenates_S32x4096x64x1_S32x4096x64x1_S32x4096x64x1_S32x4096x64x1_S32x4096x64x4_d3 : Shape.Concatenates [S32x4096x64x1, S32x4096x64x1, S32x4096x64x1, S32x4096x64x1] S32x4096x64x4 3

variable [Facts₀]

class Facts : Prop extends Facts₀ where

variable [Facts]
-- ==== Proof.HamiltonSpec.lean ====
/-
  The Hamilton product of quaternions, and the array of such products.

  A quaternion is given by its four coordinates (w, x, y, z), numbered 0 to 3. The product a·b has the coordinates
      w = a.w·b.w − a.x·b.x − a.y·b.y − a.z·b.z
      x = a.w·b.x + a.x·b.w + a.y·b.z − a.z·b.y
      y = a.w·b.y − a.x·b.z + a.y·b.w + a.z·b.x
      z = a.w·b.z + a.x·b.y − a.y·b.x + a.z·b.w
  each sum taken from left to right, as written. Over the extended reals sums are not associative at the infinities, so the
  grouping is part of the definition; both programs of this certificate group their sums this way, and no law of
  arithmetic is needed to compare them.

  An array of shape [B, S, D, 4] holds one quaternion at each position (b, s, d): its last axis. The product of two such
  arrays is taken position by position. Since a position's product reads only that position's two quaternions, the
  product of two blocks cut out of the arrays along the first three axes is the same block of the arrays' product.
-/
import Idealize.ShloMosaic.PureOps.Ideal
import Idealize.ShloMosaic.Lib.ValueIdx

noncomputable section

namespace Cert.Hamilton

open Idealize.ShloMosaic Idealize.ShloMosaic.ValueIdx

/-- Coordinate `k` of the Hamilton product of the quaternions with coordinates `a` and `b`, each sum taken left to
    right. -/
def comp (k : Fin 4) (a b : Fin 4 → EReal) : EReal :=
  match k with
  | ⟨0, _⟩ => a 0 * b 0 - a 1 * b 1 - a 2 * b 2 - a 3 * b 3
  | ⟨1, _⟩ => a 0 * b 1 + a 1 * b 0 + a 2 * b 3 - a 3 * b 2
  | ⟨2, _⟩ => a 0 * b 2 - a 1 * b 3 + a 2 * b 0 + a 3 * b 1
  | ⟨3, _⟩ => a 0 * b 3 + a 1 * b 2 - a 2 * b 1 + a 3 * b 0

theorem comp_zero (a b : Fin 4 → EReal) : comp 0 a b = a 0 * b 0 - a 1 * b 1 - a 2 * b 2 - a 3 * b 3 := rfl
theorem comp_one (a b : Fin 4 → EReal) : comp 1 a b = a 0 * b 1 + a 1 * b 0 + a 2 * b 3 - a 3 * b 2 := rfl
theorem comp_two (a b : Fin 4 → EReal) : comp 2 a b = a 0 * b 2 - a 1 * b 3 + a 2 * b 0 + a 3 * b 1 := rfl
theorem comp_three (a b : Fin 4 → EReal) : comp 3 a b = a 0 * b 3 + a 1 * b 2 - a 2 * b 1 + a 3 * b 0 := rfl

variable {B S D : Nat}

/-- The quaternion an array of shape [B, S, D, 4] holds at position (b, s, d). -/
def quat (q : (⟨4, ![B, S, D, 4]⟩ : Shape).Idx → EReal) (b : Fin B) (s : Fin S) (d : Fin D) : Fin 4 → EReal :=
  fun k => q (ix4 b s d k)

/-- The array of Hamilton products of two arrays of quaternions, position by position. -/
def prod (q1 q2 : (⟨4, ![B, S, D, 4]⟩ : Shape).Idx → EReal) : (⟨4, ![B, S, D, 4]⟩ : Shape).Idx → EReal :=
  fun i => comp (i 3) (quat q1 (i 0) (i 1) (i 2)) (quat q2 (i 0) (i 1) (i 2))

/-- The product array at a position and a coordinate. -/
theorem prod_ix4 (q1 q2 : (⟨4, ![B, S, D, 4]⟩ : Shape).Idx → EReal) (b : Fin B) (s : Fin S) (d : Fin D) (k : Fin 4) :
    prod q1 q2 (ix4 b s d k) = comp k (quat q1 b s d) (quat q2 b s d) := rfl

/-- The product at a position reads only that position's two quaternions: arrays that hold the same two quaternions
    at two positions, of whatever extents, have the same product there. -/
theorem prod_congr {B' S' D' : Nat} (q1 q2 : (⟨4, ![B, S, D, 4]⟩ : Shape).Idx → EReal)
    (p1 p2 : (⟨4, ![B', S', D', 4]⟩ : Shape).Idx → EReal) (b : Fin B) (s : Fin S) (d : Fin D) (b' : Fin B') (s' : Fin S') (d' : Fin D')
    (h1 : quat q1 b s d = quat p1 b' s' d') (h2 : quat q2 b s d = quat p2 b' s' d') (k : Fin 4) :
    prod q1 q2 (ix4 b s d k) = prod p1 p2 (ix4 b' s' d' k) := by
  rw [prod_ix4, prod_ix4, h1, h2]

end Cert.Hamilton

end
-- ==== Proof.KernelBlock.lean ====
/-
  What one grid point's body leaves in the output block.

  The body loads the two input blocks, of shape [1, 128, 64, 4], drops the leading unit axis, and takes the four
  coordinate planes [128, 64] of each along the last axis: plane k of a block x holds x(0, s, d, k) at (s, d). The four
  result planes are the four coordinates of the Hamilton product, computed plane against plane, and each is stored as the
  [1, 128, 64, 1] slab of the output block at offset k on the last axis. The four slabs tile the block, so the block
  ends as the position-by-position Hamilton product of the two input blocks.
-/
import proofs.«129684_j32401233281622_1_alg».proof.Proof.Gen.KernelIdeal.Frame
import proofs.«129684_j32401233281622_1_alg».proof.Proof.HamiltonSpec
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.TcCoe Idealize.ShloMosaic.ValueIdx
open Cert.Hamilton

/-! ## A coordinate plane of a block -/

/-- Plane `k` of a block `x`: the block without its unit axis, sliced to width one at offset `k` on the last axis,
    and that unit axis dropped, holds at (s, d) coordinate `k` of the quaternion at (0, s, d). -/
theorem plane_apply (k : Fin 4) (off : Fin 3 → Nat) (hoff : off = ![0, 0, k.val])
    (h1 : S1x128x64x4.ShapeCasts S128x64x4) (h2 : S128x64x4.Slices off S128x64x1) (h3 : S128x64x1.ShapeCasts S128x64)
    (x : Vec Ideal S1x128x64x4 .f32) (s : Fin 128) (d : Fin 64) :
    shapeCast S128x64 (extractStridedSlice S128x64x1 off (shapeCast S128x64x4 x h1) h2) h3 (ix2 s d)
      = quat x (0 : Fin 1) s d k := by
  subst hoff
  refine (shapeCast_apply _ h3 (ix2 s d) (ix3 s d (0 : Fin 1)) ?_).trans ?_
  · rw [Shape.rowMajor_val_three, Shape.rowMajor_val_two]
    show (s.val * 64 + d.val) * 1 + 0 = s.val * 64 + d.val
    omega
  refine (extractStridedSlice_apply _ _ h2 (ix3 s d (0 : Fin 1)) (ix3 s d k) ?_).trans ?_
  · intro a
    match a with
    | ⟨0, _⟩ => show s.val = 0 + s.val; omega
    | ⟨1, _⟩ => show d.val = 0 + d.val; omega
    | ⟨2, _⟩ => show k.val = k.val + 0; omega
  exact shapeCast_1abc_abc_apply x h1 s d k

/-- A result plane `v` stored as a [1, 128, 64, 1] slab holds `v (s, d)` at its entry `y` = (0, s, d, 0). -/
theorem slab_apply (h : S128x64.ShapeCasts S1x128x64x1) (v : FVec Ideal S128x64 .f32) (y : S1x128x64x1.Idx)
    (s : Fin 128) (d : Fin 64) (hs : (y 1).val = s.val) (hd : (y 2).val = d.val) :
    shapeCast S1x128x64x1 v h y = v (ix2 s d) := by
  refine shapeCast_apply v h y (ix2 s d) ?_
  rw [Shape.rowMajor_val_four, Shape.rowMajor_val_two]
  have h0 : (y 0).val < 1 := (y 0).isLt
  have h3 : (y 3).val < 1 := (y 3).isLt
  show s.val * 64 + d.val = (((y 0).val * 128 + (y 1).val) * 64 + (y 2).val) * 1 + (y 3).val
  omega

/-! ## The eight coordinate planes the body takes -/

section Planes
variable (x : Vec Ideal S1x128x64x4 .f32) (s : Fin 128) (d : Fin 64)

theorem w1_apply : k0_pay7 (F := Ideal) x (ix2 s d) = quat x (0 : Fin 1) s d 0 := plane_apply 0 _ rfl _ _ _ x s d
theorem x1_apply : k0_pay8 (F := Ideal) x (ix2 s d) = quat x (0 : Fin 1) s d 1 := plane_apply 1 _ rfl _ _ _ x s d
theorem y1_apply : k0_pay9 (F := Ideal) x (ix2 s d) = quat x (0 : Fin 1) s d 2 := plane_apply 2 _ rfl _ _ _ x s d
theorem z1_apply : k0_pay10 (F := Ideal) x (ix2 s d) = quat x (0 : Fin 1) s d 3 := plane_apply 3 _ rfl _ _ _ x s d
theorem w2_apply : k0_pay11 (F := Ideal) x (ix2 s d) = quat x (0 : Fin 1) s d 0 := plane_apply 0 _ rfl _ _ _ x s d
theorem x2_apply : k0_pay12 (F := Ideal) x (ix2 s d) = quat x (0 : Fin 1) s d 1 := plane_apply 1 _ rfl _ _ _ x s d
theorem y2_apply : k0_pay13 (F := Ideal) x (ix2 s d) = quat x (0 : Fin 1) s d 2 := plane_apply 2 _ rfl _ _ _ x s d
theorem z2_apply : k0_pay14 (F := Ideal) x (ix2 s d) = quat x (0 : Fin 1) s d 3 := plane_apply 3 _ rfl _ _ _ x s d

end Planes

/-! ## The four result planes are the product's four coordinates -/

section Results
variable (x0 x1 : Vec Ideal S1x128x64x4 .f32) (s : Fin 128) (d : Fin 64)

theorem outw_apply : k0_pay15 (F := Ideal) x0 x1 (ix2 s d) = comp 0 (quat x0 (0 : Fin 1) s d) (quat x1 (0 : Fin 1) s d) := by
  show k0_pay7 (F := Ideal) x0 (ix2 s d) * k0_pay11 (F := Ideal) x1 (ix2 s d) - k0_pay8 (F := Ideal) x0 (ix2 s d) * k0_pay12 (F := Ideal) x1 (ix2 s d)
      - k0_pay9 (F := Ideal) x0 (ix2 s d) * k0_pay13 (F := Ideal) x1 (ix2 s d) - k0_pay10 (F := Ideal) x0 (ix2 s d) * k0_pay14 (F := Ideal) x1 (ix2 s d) = _
  rw [w1_apply, x1_apply, y1_apply, z1_apply, w2_apply, x2_apply, y2_apply, z2_apply]
  rfl

theorem outx_apply : k0_pay16 (F := Ideal) x0 x1 (ix2 s d) = comp 1 (quat x0 (0 : Fin 1) s d) (quat x1 (0 : Fin 1) s d) := by
  show k0_pay7 (F := Ideal) x0 (ix2 s d) * k0_pay12 (F := Ideal) x1 (ix2 s d) + k0_pay8 (F := Ideal) x0 (ix2 s d) * k0_pay11 (F := Ideal) x1 (ix2 s d)
      + k0_pay9 (F := Ideal) x0 (ix2 s d) * k0_pay14 (F := Ideal) x1 (ix2 s d) - k0_pay10 (F := Ideal) x0 (ix2 s d) * k0_pay13 (F := Ideal) x1 (ix2 s d) = _
  rw [w1_apply, x1_apply, y1_apply, z1_apply, w2_apply, x2_apply, y2_apply, z2_apply]
  rfl

theorem outy_apply : k0_pay17 (F := Ideal) x0 x1 (ix2 s d) = comp 2 (quat x0 (0 : Fin 1) s d) (quat x1 (0 : Fin 1) s d) := by
  show k0_pay7 (F := Ideal) x0 (ix2 s d) * k0_pay13 (F := Ideal) x1 (ix2 s d) - k0_pay8 (F := Ideal) x0 (ix2 s d) * k0_pay14 (F := Ideal) x1 (ix2 s d)
      + k0_pay9 (F := Ideal) x0 (ix2 s d) * k0_pay11 (F := Ideal) x1 (ix2 s d) + k0_pay10 (F := Ideal) x0 (ix2 s d) * k0_pay12 (F := Ideal) x1 (ix2 s d) = _
  rw [w1_apply, x1_apply, y1_apply, z1_apply, w2_apply, x2_apply, y2_apply, z2_apply]
  rfl

theorem outz_apply : k0_pay18 (F := Ideal) x0 x1 (ix2 s d) = comp 3 (quat x0 (0 : Fin 1) s d) (quat x1 (0 : Fin 1) s d) := by
  show k0_pay7 (F := Ideal) x0 (ix2 s d) * k0_pay14 (F := Ideal) x1 (ix2 s d) + k0_pay8 (F := Ideal) x0 (ix2 s d) * k0_pay13 (F := Ideal) x1 (ix2 s d)
      - k0_pay9 (F := Ideal) x0 (ix2 s d) * k0_pay12 (F := Ideal) x1 (ix2 s d) + k0_pay10 (F := Ideal) x0 (ix2 s d) * k0_pay11 (F := Ideal) x1 (ix2 s d) = _
  rw [w1_apply, x1_apply, y1_apply, z1_apply, w2_apply, x2_apply, y2_apply, z2_apply]
  rfl

end Results

/-! ## The four slabs, and the block -/

section Slabs
variable (x0 x1 : Vec Ideal S1x128x64x4 .f32)

/-- Where the slab at offset `k` on the last axis puts its entry `y` = (0, s, d, 0): position (0, s, d), coordinate `k`. -/
theorem slab_emb (k : Fin 4) (off : Fin 4 → Nat) (hoff : off = ![0, 0, 0, k.val]) (inb : ∀ a, off a + S1x128x64x1.size a ≤ S1x128x64x4.size a)
    (y : S1x128x64x1.Idx) (s : Fin 128) (d : Fin 64) (hs : (y 1).val = s.val) (hd : (y 2).val = d.val) :
    (Rect.unit (s := S1x128x64x4) off S1x128x64x1.size inb).emb y = ix4 (0 : Fin 1) s d k := by
  subst hoff
  have h0 : (y 0).val < 1 := (y 0).isLt
  have h3 : (y 3).val < 1 := (y 3).isLt
  funext a
  apply Fin.ext
  match a with
  | ⟨0, _⟩ => show 0 + 1 * (y 0).val = 0; omega
  | ⟨1, _⟩ => show 0 + 1 * (y 1).val = s.val; omega
  | ⟨2, _⟩ => show 0 + 1 * (y 2).val = d.val; omega
  | ⟨3, _⟩ => show k.val + 1 * (y 3).val = k.val; omega

theorem slabw (y : S1x128x64x1.Idx) : k0_pay1 (k0_pay15 (F := Ideal) x0 x1) y = prod x0 x1 (r0_1.emb y) := by
  obtain ⟨s, hs⟩ : ∃ s : Fin 128, (y 1).val = s.val := ⟨⟨(y 1).val, (y 1).isLt⟩, rfl⟩
  obtain ⟨d, hd⟩ : ∃ d : Fin 64, (y 2).val = d.val := ⟨⟨(y 2).val, (y 2).isLt⟩, rfl⟩
  have e : r0_1.emb y = ix4 (0 : Fin 1) s d (0 : Fin 4) := slab_emb 0 _ rfl _ y s d hs hd
  rw [e, prod_ix4]
  exact (slab_apply _ _ y s d hs hd).trans (outw_apply x0 x1 s d)

theorem slabx (y : S1x128x64x1.Idx) : k0_pay2 (k0_pay16 (F := Ideal) x0 x1) y = prod x0 x1 (r0_2.emb y) := by
  obtain ⟨s, hs⟩ : ∃ s : Fin 128, (y 1).val = s.val := ⟨⟨(y 1).val, (y 1).isLt⟩, rfl⟩
  obtain ⟨d, hd⟩ : ∃ d : Fin 64, (y 2).val = d.val := ⟨⟨(y 2).val, (y 2).isLt⟩, rfl⟩
  have e : r0_2.emb y = ix4 (0 : Fin 1) s d (1 : Fin 4) := slab_emb 1 _ rfl _ y s d hs hd
  rw [e, prod_ix4]
  exact (slab_apply _ _ y s d hs hd).trans (outx_apply x0 x1 s d)

theorem slaby (y : S1x128x64x1.Idx) : k0_pay3 (k0_pay17 (F := Ideal) x0 x1) y = prod x0 x1 (r0_3.emb y) := by
  obtain ⟨s, hs⟩ : ∃ s : Fin 128, (y 1).val = s.val := ⟨⟨(y 1).val, (y 1).isLt⟩, rfl⟩
  obtain ⟨d, hd⟩ : ∃ d : Fin 64, (y 2).val = d.val := ⟨⟨(y 2).val, (y 2).isLt⟩, rfl⟩
  have e : r0_3.emb y = ix4 (0 : Fin 1) s d (2 : Fin 4) := slab_emb 2 _ rfl _ y s d hs hd
  rw [e, prod_ix4]
  exact (slab_apply _ _ y s d hs hd).trans (outy_apply x0 x1 s d)

theorem slabz (y : S1x128x64x1.Idx) : k0_pay4 (k0_pay18 (F := Ideal) x0 x1) y = prod x0 x1 (r0_4.emb y) := by
  obtain ⟨s, hs⟩ : ∃ s : Fin 128, (y 1).val = s.val := ⟨⟨(y 1).val, (y 1).isLt⟩, rfl⟩
  obtain ⟨d, hd⟩ : ∃ d : Fin 64, (y 2).val = d.val := ⟨⟨(y 2).val, (y 2).isLt⟩, rfl⟩
  have e : r0_4.emb y = ix4 (0 : Fin 1) s d (3 : Fin 4) := slab_emb 3 _ rfl _ y s d hs hd
  rw [e, prod_ix4]
  exact (slab_apply _ _ y s d hs hd).trans (outz_apply x0 x1 s d)

theorem zero_off : (![0, 0, 0, 0] : Fin 4 → Nat) = fun _ => 0 := funext fun a => by fin_cases a <;> rfl

/-- THE BLOCK: after the body the output block is the Hamilton product of the two input blocks, position by
    position — each of the four slabs agrees with it, and the slabs cover the block. -/
theorem out_eq : out0_2 (F := Ideal) x0 x1 = prod x0 x1 := by
  funext y
  unfold out0_2
  simp only [View.ld_unit_zero (S := S1x128x64x4) zero_off]
  refine View.canon_apply_of_pieces (Val := Elt Ideal) (prod x0 x1 : Vec Ideal S1x128x64x4 .f32) _ ?_ y (cover0_2 _ _ _ _ y)
  intro p hp
  simp only [List.mem_cons, List.not_mem_nil, or_false] at hp
  rcases hp with rfl | rfl | rfl | rfl
  · exact slabz x0 x1
  · exact slaby x0 x1
  · exact slabx x0 x1
  · exact slabw x0 x1

end Slabs

end Cert.KernelIdeal.Block

end
-- ==== Proof.KernelValue.lean ====
/-
  From the blocks to the array.

  The grid is 32 × 32 and runs its last axis fastest: point t has the coordinates (t / 32, t % 32). All three windows
  have the index map (i, j) ↦ (i, j, 0, 0) and blocks of shape [1, 128, 64, 4], so at point t each reads or writes
  the entries (t / 32, (t % 32)·128 + s, d, k) of its array, s < 128, d < 64, k < 4: whole quaternions, at the same
  positions in all three arrays. Since the Hamilton product at a position reads only that position's two quaternions,
  the product of the two input blocks at t is the block at t of the product of the two argument arrays; and the
  blocks of the 1024 points tile the [32, 4096, 64, 4] result (the entry (b, s, d, k) lies in the block of point
  32·b + s / 128). So the result array ends as the product of the argument arrays.
-/
import proofs.«129684_j32401233281622_1_alg».proof.Proof.Gen.KernelIdeal.Value
import proofs.«129684_j32401233281622_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Hamilton

variable (m : (ℓ : Loc nD τ sig) → Buf (Elt Ideal) ℓ) (ρ : Dev nD → PrngReg)

/-! ## The grid's points and the windows' block indices -/

theorem stride_zero : grid0.stride 0 = 32 := by decide
theorem stride_one : grid0.stride 1 = 1 := by decide

theorem point_lt (t : Fin cfg0.N) : t.val < 1024 := Nat.lt_of_lt_of_eq t.isLt N_0

/-- At point `t` every window's block index is (t / 32, t % 32, 0, 0). -/
theorem index_facts (t : Fin cfg0.N) :
    (∀ a, win0_0.index t a = win0_2.index t a) ∧ (∀ a, win0_1.index t a = win0_2.index t a)
    ∧ win0_2.index t (0 : Fin 4) = t.val / 32 ∧ win0_2.index t (1 : Fin 4) = t.val % 32
    ∧ win0_2.index t (2 : Fin 4) = 0 ∧ win0_2.index t (3 : Fin 4) = 0 := by
  have ht := point_lt t
  refine ⟨fun _ => rfl, fun _ => rfl, ?_, ?_, rfl, rfl⟩
  · show (BitVec.ofNat 32 (t.val / grid0.stride 0 % 32)).toNat = _
    rw [BitVec.toNat_ofNat, stride_zero]
    omega
  · show (BitVec.ofNat 32 (t.val / grid0.stride 1 % 32)).toNat = _
    rw [BitVec.toNat_ofNat, stride_one]
    omega

/-! ## Where a block's entries sit in the array -/

section Place
variable (t : Fin cfg0.N) (u : Fin 1) (s : Fin 128) (d : Fin 64) (k : Fin 4) (b' : Fin 32) (s' : Fin 4096)

/-- Entry (u, s, d, k) of the output block at point `t` is the array's entry (t / 32, (t % 32)·128 + s, d, k). -/
theorem place_out (hb : b'.val = t.val / 32) (hs : s'.val = t.val % 32 * 128 + s.val) :
    ((cfg0.win 2).blk t).view.emb (ix4 u s d k) = ix4 b' s' d k := by
  obtain ⟨-, -, e0, e1, e2, e3⟩ := index_facts t
  have hu : u.val < 1 := u.isLt
  funext a
  apply Fin.ext
  match a with
  | ⟨0, _⟩ => show win0_2.index t (0 : Fin 4) * 1 + 1 * u.val = b'.val; omega
  | ⟨1, _⟩ => show win0_2.index t (1 : Fin 4) * 128 + 1 * s.val = s'.val; omega
  | ⟨2, _⟩ => show win0_2.index t (2 : Fin 4) * 64 + 1 * d.val = d.val; omega
  | ⟨3, _⟩ => show win0_2.index t (3 : Fin 4) * 4 + 1 * k.val = k.val; omega

/-- The same entry of the first input block is the same entry of its array, -/
theorem place_in0 (hb : b'.val = t.val / 32) (hs : s'.val = t.val % 32 * 128 + s.val) :
    ((cfg0.win 0).blk t).view.emb (ix4 u s d k) = ix4 b' s' d k := by
  obtain ⟨f, -, e0, e1, e2, e3⟩ := index_facts t
  have f0 := f 0; have f1 := f 1; have f2 := f 2; have f3 := f 3
  have hu : u.val < 1 := u.isLt
  funext a
  apply Fin.ext
  match a with
  | ⟨0, _⟩ => show win0_0.index t (0 : Fin 4) * 1 + 1 * u.val = b'.val; omega
  | ⟨1, _⟩ => show win0_0.index t (1 : Fin 4) * 128 + 1 * s.val = s'.val; omega
  | ⟨2, _⟩ => show win0_0.index t (2 : Fin 4) * 64 + 1 * d.val = d.val; omega
  | ⟨3, _⟩ => show win0_0.index t (3 : Fin 4) * 4 + 1 * k.val = k.val; omega

/-- and of the second input block, of its array. -/
theorem place_in1 (hb : b'.val = t.val / 32) (hs : s'.val = t.val % 32 * 128 + s.val) :
    ((cfg0.win 1).blk t).view.emb (ix4 u s d k) = ix4 b' s' d k := by
  obtain ⟨-, f, e0, e1, e2, e3⟩ := index_facts t
  have f0 := f 0; have f1 := f 1; have f2 := f 2; have f3 := f 3
  have hu : u.val < 1 := u.isLt
  funext a
  apply Fin.ext
  match a with
  | ⟨0, _⟩ => show win0_1.index t (0 : Fin 4) * 1 + 1 * u.val = b'.val; omega
  | ⟨1, _⟩ => show win0_1.index t (1 : Fin 4) * 128 + 1 * s.val = s'.val; omega
  | ⟨2, _⟩ => show win0_1.index t (2 : Fin 4) * 64 + 1 * d.val = d.val; omega
  | ⟨3, _⟩ => show win0_1.index t (3 : Fin 4) * 4 + 1 * k.val = k.val; omega

end Place

/-! ## The product of the blocks at a point is the block of the product -/

theorem block_of_prod (c : Dev nD) (t : Fin cfg0.N) (j : S1x128x64x4.Idx) :
    prod (B := 1) (S := 128) (D := 64) (iblk m c 0 t) (iblk m c 1 t) j
      = prod (B := 32) (S := 4096) (D := 64) (V m c main_arg0) (V m c main_arg1) (((cfg0.win 2).blk t).view.emb j) := by
  obtain ⟨u, s, d, k, rfl⟩ : ∃ (u : Fin 1) (s : Fin 128) (d : Fin 64) (k : Fin 4), j = ix4 u s d k := ⟨j 0, j 1, j 2, j 3, eq_ix4 j⟩
  have ht := point_lt t
  obtain ⟨b', hb⟩ : ∃ b' : Fin 32, b'.val = t.val / 32 := ⟨⟨t.val / 32, by omega⟩, rfl⟩
  obtain ⟨s', hs⟩ : ∃ s' : Fin 4096, s'.val = t.val % 32 * 128 + s.val := ⟨⟨t.val % 32 * 128 + s.val, by omega⟩, rfl⟩
  rw [place_out t u s d k b' s' hb hs]
  refine prod_congr _ _ _ _ u s d b' s' d ?_ ?_ k
  · funext k'
    show V m c main_arg0 (((cfg0.win 0).blk t).view.emb (ix4 u s d k')) = V m c main_arg0 (ix4 b' s' d k')
    rw [place_in0 t u s d k' b' s' hb hs]
  · funext k'
    show V m c main_arg1 (((cfg0.win 1).blk t).view.emb (ix4 u s d k')) = V m c main_arg1 (ix4 b' s' d k')
    rw [place_in1 t u s d k' b' s' hb hs]

/-- WHAT POINT `t` WRITES BACK is block `t` of the product of the argument arrays. -/
theorem flushed_eq (c : Dev nD) (t : Fin cfg0.N) :
    (dats m 0 c).flushed 2 t
      = ((cfg0.win 2).blk t).view.read (Elt Ideal) (prod (B := 32) (S := 4096) (D := 64) (V m c main_arg0) (V m c main_arg1)) := by
  rw [Value.flushed2, Block.out_eq]
  funext j
  exact block_of_prod m c t j

/-! ## The blocks tile the array -/

/-- An entry of the array is in point `t`'s block iff each coordinate is in the block's range on its axis. -/
theorem mem_block (t : Fin cfg0.N) (i : S32x4096x64x4.Idx) :
    i ∈ ((cfg0.win 2).blk t).view.set ↔ ∀ a : Fin 4, win0_2.index t a * S1x128x64x4.size a ≤ (i a).val
      ∧ (i a).val < win0_2.index t a * S1x128x64x4.size a + S1x128x64x4.size a := by
  show i ∈ ((View.whole main_v0).slice (win0_2.rect t)).set ↔ _
  rw [View.set_slice_whole, Rect.mem_set_unit]
  exact Iff.rfl

/-- Every entry (b, s, d, k) of the result is in the block of the point 32·b + s / 128, which is written back. -/
theorem cover (i : S32x4096x64x4.Idx) : ∃ t : Fin cfg0.N, (cfg0.win 2).flush t = true ∧ i ∈ ((cfg0.win 2).blk t).view.set := by
  have h0 : (i 0).val < 32 := (i 0).isLt
  have h1 : (i 1).val < 4096 := (i 1).isLt
  have h2 : (i 2).val < 64 := (i 2).isLt
  have h3 : (i 3).val < 4 := (i 3).isLt
  obtain ⟨t, tv⟩ : ∃ t : Fin cfg0.N, t.val = (i 0).val * 32 + (i 1).val / 128 :=
    ⟨⟨(i 0).val * 32 + (i 1).val / 128, Nat.lt_of_lt_of_eq (by omega : (i 0).val * 32 + (i 1).val / 128 < 1024) N_0.symm⟩, rfl⟩
  refine ⟨t, flush0_2 t, ?_⟩
  rw [mem_block]
  obtain ⟨-, -, e0, e1, e2, e3⟩ := index_facts t
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 4 ≤ (i 3).val ∧ (i 3).val < win0_2.index t (3 : Fin 4) * 4 + 4; omega

/-! ## The array, and the run -/

/-- THE RESULT ARRAY after the run is the Hamilton product of the argument arrays as launched. -/
theorem final (c : Dev nD) : (dats m 0 c).arrAt 2 cfg0.N
    = prod (B := 32) (S := 4096) (D := 64) (m ((c : Thread nD τ).loc main_arg0)) (m ((c : Thread nD τ).loc main_arg1)) :=
  (dats m 0 c).arrAt_eq_of_cover 2 (prod (B := 32) (S := 4096) (D := 64) (V m c main_arg0) (V m c main_arg1))
    (fun t _ => flushed_eq m c t) cover

/-- Every weakly fair execution of the kernel's program terminates with the result array at the product of the
    argument arrays, and those unchanged. -/
theorem run : θ_run defs (onTc (τ := τ) (main (F := Ideal))) ⟨m, fun _ => 0, ρ⟩ fun r => ∀ c : Dev nD,
      r.2.mem ((c : Thread nD τ).loc main_v0)
        = prod (B := 32) (S := 4096) (D := 64) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  What the reference computes, index by index.

  The reference slices each argument array [32, 4096, 64, 4] to width one at each of the four offsets of the last axis
  and drops that axis: eight coordinate planes [32, 4096, 64], plane k of an array q holding coordinate k of the
  quaternion at (b, s, d). It computes the four coordinates of the Hamilton product plane against plane, each sum from
  left to right, gives each result plane a unit last axis again and joins the four along that axis. So the result holds,
  at (b, s, d, k), coordinate k of the product of the two quaternions at (b, s, d).
-/
import proofs.«129684_j32401233281622_1_alg».proof.Proof.Gen.ReferenceIdeal.Read
import proofs.«129684_j32401233281622_1_alg».proof.Proof.HamiltonSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Hamilton

abbrev Arr : Type := (⟨S32x4096x64x4, .f32⟩ : BufTy).Contents (Elt Ideal)

/-! ## The eight coordinate planes -/

section Planes
variable (x : Arr) (b : Fin 32) (s : Fin 4096) (d : Fin 64)

/-- The row-major position of (b, s, d) in [32, 4096, 64], split back into its coordinates. -/
theorem pos_split : ((b.val * 4096 + s.val) * 64 + d.val) / 262144 = b.val
    ∧ ((b.val * 4096 + s.val) * 64 + d.val) / 64 % 4096 = s.val
    ∧ ((b.val * 4096 + s.val) * 64 + d.val) / 1 % 64 = d.val := by
  have hb := b.isLt; have hs := s.isLt; have hd := d.isLt
  omega

theorem w1_apply : val_main_v1 (F := Ideal) x (ix3 b s d) = quat x b s d 0 := by
  rw [val_main_v1_apply, val_main_v0_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem x1_apply : val_main_v3 (F := Ideal) x (ix3 b s d) = quat x b s d 1 := by
  rw [val_main_v3_apply, val_main_v2_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem y1_apply : val_main_v5 (F := Ideal) x (ix3 b s d) = quat x b s d 2 := by
  rw [val_main_v5_apply, val_main_v4_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem z1_apply : val_main_v7 (F := Ideal) x (ix3 b s d) = quat x b s d 3 := by
  rw [val_main_v7_apply, val_main_v6_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem w2_apply : val_main_v9 (F := Ideal) x (ix3 b s d) = quat x b s d 0 := by
  rw [val_main_v9_apply, val_main_v8_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem x2_apply : val_main_v11 (F := Ideal) x (ix3 b s d) = quat x b s d 1 := by
  rw [val_main_v11_apply, val_main_v10_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem y2_apply : val_main_v13 (F := Ideal) x (ix3 b s d) = quat x b s d 2 := by
  rw [val_main_v13_apply, val_main_v12_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

theorem z2_apply : val_main_v15 (F := Ideal) x (ix3 b s d) = quat x b s d 3 := by
  rw [val_main_v15_apply, val_main_v14_apply]
  obtain ⟨e0, e1, e2⟩ := pos_split b s d
  refine congrArg x (funext fun a => Fin.ext ?_)
  match a with
  | ⟨0, _⟩ => exact e0
  | ⟨1, _⟩ => exact e1
  | ⟨2, _⟩ => exact e2
  | ⟨3, _⟩ => rfl

end Planes

/-! ## The four result planes are the product's four coordinates -/

section Results
variable (x0 x1 : Arr) (b : Fin 32) (s : Fin 4096) (d : Fin 64)

theorem outw_apply : val_main_v22 (F := Ideal) x0 x1 (ix3 b s d) = comp 0 (quat x0 b s d) (quat x1 b s d) := by
  show val_main_v1 (F := Ideal) x0 (ix3 b s d) * val_main_v9 (F := Ideal) x1 (ix3 b s d) - val_main_v3 (F := Ideal) x0 (ix3 b s d) * val_main_v11 (F := Ideal) x1 (ix3 b s d)
      - val_main_v5 (F := Ideal) x0 (ix3 b s d) * val_main_v13 (F := Ideal) x1 (ix3 b s d) - val_main_v7 (F := Ideal) x0 (ix3 b s d) * val_main_v15 (F := Ideal) x1 (ix3 b s d) = _
  rw [w1_apply, x1_apply, y1_apply, z1_apply, w2_apply, x2_apply, y2_apply, z2_apply]
  rfl

theorem outx_apply : val_main_v29 (F := Ideal) x0 x1 (ix3 b s d) = comp 1 (quat x0 b s d) (quat x1 b s d) := by
  show val_main_v1 (F := Ideal) x0 (ix3 b s d) * val_main_v11 (F := Ideal) x1 (ix3 b s d) + val_main_v3 (F := Ideal) x0 (ix3 b s d) * val_main_v9 (F := Ideal) x1 (ix3 b s d)
      + val_main_v5 (F := Ideal) x0 (ix3 b s d) * val_main_v15 (F := Ideal) x1 (ix3 b s d) - val_main_v7 (F := Ideal) x0 (ix3 b s d) * val_main_v13 (F := Ideal) x1 (ix3 b s d) = _
  rw [w1_apply, x1_apply, y1_apply, z1_apply, w2_apply, x2_apply, y2_apply, z2_apply]
  rfl

theorem outy_apply : val_main_v36 (F := Ideal) x0 x1 (ix3 b s d) = comp 2 (quat x0 b s d) (quat x1 b s d) := by
  show val_main_v1 (F := Ideal) x0 (ix3 b s d) * val_main_v13 (F := Ideal) x1 (ix3 b s d) - val_main_v3 (F := Ideal) x0 (ix3 b s d) * val_main_v15 (F := Ideal) x1 (ix3 b s d)
      + val_main_v5 (F := Ideal) x0 (ix3 b s d) * val_main_v9 (F := Ideal) x1 (ix3 b s d) + val_main_v7 (F := Ideal) x0 (ix3 b s d) * val_main_v11 (F := Ideal) x1 (ix3 b s d) = _
  rw [w1_apply, x1_apply, y1_apply, z1_apply, w2_apply, x2_apply, y2_apply, z2_apply]
  rfl

theorem outz_apply : val_main_v43 (F := Ideal) x0 x1 (ix3 b s d) = comp 3 (quat x0 b s d) (quat x1 b s d) := by
  show val_main_v1 (F := Ideal) x0 (ix3 b s d) * val_main_v15 (F := Ideal) x1 (ix3 b s d) + val_main_v3 (F := Ideal) x0 (ix3 b s d) * val_main_v13 (F := Ideal) x1 (ix3 b s d)
      - val_main_v5 (F := Ideal) x0 (ix3 b s d) * val_main_v11 (F := Ideal) x1 (ix3 b s d) + val_main_v7 (F := Ideal) x0 (ix3 b s d) * val_main_v9 (F := Ideal) x1 (ix3 b s d) = _
  rw [w1_apply, x1_apply, y1_apply, z1_apply, w2_apply, x2_apply, y2_apply, z2_apply]
  rfl

/-- A result plane with its unit last axis back: (b, s, d, 0) reads the plane at (b, s, d). -/
theorem unit_axis : idx_main_v44 (ix4 b s d (0 : Fin 1)) = ix3 b s d :=
  funext fun a => match a with | ⟨0, _⟩ => rfl | ⟨1, _⟩ => rfl | ⟨2, _⟩ => rfl

theorem slabw_apply : val_main_v44 (F := Ideal) x0 x1 (ix4 b s d (0 : Fin 1)) = comp 0 (quat x0 b s d) (quat x1 b s d) := by
  rw [val_main_v44_apply, unit_axis]; exact outw_apply x0 x1 b s d
theorem slabx_apply : val_main_v45 (F := Ideal) x0 x1 (ix4 b s d (0 : Fin 1)) = comp 1 (quat x0 b s d) (quat x1 b s d) := by
  rw [val_main_v45_apply]; exact (congrArg _ (unit_axis b s d)).trans (outx_apply x0 x1 b s d)
theorem slaby_apply : val_main_v46 (F := Ideal) x0 x1 (ix4 b s d (0 : Fin 1)) = comp 2 (quat x0 b s d) (quat x1 b s d) := by
  rw [val_main_v46_apply]; exact (congrArg _ (unit_axis b s d)).trans (outy_apply x0 x1 b s d)
theorem slabz_apply : val_main_v47 (F := Ideal) x0 x1 (ix4 b s d (0 : Fin 1)) = comp 3 (quat x0 b s d) (quat x1 b s d) := by
  rw [val_main_v47_apply]; exact (congrArg _ (unit_axis b s d)).trans (outz_apply x0 x1 b s d)

end Results

/-! ## The join along the last axis -/

section Join
variable (x0 x1 : Arr) (b : Fin 32) (s : Fin 4096) (d : Fin 64)

/-- The joined array at (b, s, d, k) reads slab `k` — the one whose unit extent along the last axis holds `k`, the
    `k` slabs before it taking up the positions below — at (b, s, d, 0). -/
theorem joined_apply (k : Fin 4) : val_main_v48 (F := Ideal) x0 x1 (ix4 b s d k) = comp k (quat x0 b s d) (quat x1 b s d) := by
  unfold val_main_v48
  have hi : ∀ a : Fin S32x4096x64x1.rank, a.cast (rfl : S32x4096x64x1.rank = S32x4096x64x4.rank) ≠ (3 : Fin S32x4096x64x4.rank) →
      ((ix4 b s d (0 : Fin 1) : S32x4096x64x1.Idx) a).val = ((ix4 b s d k : S32x4096x64x4.Idx) (a.cast rfl)).val := fun a ha =>
    match a, ha with
    | ⟨0, _⟩, _ => rfl
    | ⟨1, _⟩, _ => rfl
    | ⟨2, _⟩, _ => rfl
    | ⟨3, _⟩, ha => absurd rfl ha
  match k with
  | ⟨0, _⟩ =>
    exact (concatenate_apply_piece (3 : Fin S32x4096x64x4.rank) _ _ _ 0 (by show 0 < 4; omega) S32x4096x64x1 (val_main_v44 (F := Ideal) x0 x1) rfl rfl 0 rfl
      (ix4 b s d (0 : Fin 1)) hi rfl).trans (slabw_apply x0 x1 b s d)
  | ⟨1, _⟩ =>
    exact (concatenate_apply_piece (3 : Fin S32x4096x64x4.rank) _ _ _ 1 (by show 1 < 4; omega) S32x4096x64x1 (val_main_v45 (F := Ideal) x0 x1) rfl rfl 1 rfl
      (ix4 b s d (0 : Fin 1)) hi rfl).trans (slabx_apply x0 x1 b s d)
  | ⟨2, _⟩ =>
    exact (concatenate_apply_piece (3 : Fin S32x4096x64x4.rank) _ _ _ 2 (by show 2 < 4; omega) S32x4096x64x1 (val_main_v46 (F := Ideal) x0 x1) rfl rfl 2 rfl
      (ix4 b s d (0 : Fin 1)) hi rfl).trans (slaby_apply x0 x1 b s d)
  | ⟨3, _⟩ =>
    exact (concatenate_apply_piece (3 : Fin S32x4096x64x4.rank) _ _ _ 3 (by show 3 < 4; omega) S32x4096x64x1 (val_main_v47 (F := Ideal) x0 x1) rfl rfl 3 rfl
      (ix4 b s d (0 : Fin 1)) hi rfl).trans (slabz_apply x0 x1 b s d)

end Join

/-- THE REFERENCE'S RESULT is the Hamilton product of the two argument arrays, position by position. -/
theorem result_eq (x0 x1 : Arr) : val_main_v48 (F := Ideal) x0 x1 = prod x0 x1 := by
  funext i
  obtain ⟨b, s, d, k, rfl⟩ : ∃ (b : Fin 32) (s : Fin 4096) (d : Fin 64) (k : Fin 4), i = ix4 b s d k := ⟨i 0, i 1, i 2, i 3, eq_ix4 i⟩
  rw [prod_ix4]
  exact joined_apply x0 x1 b s d k

end Cert.ReferenceIdeal.RefValue

end
-- ==== Proof.lean ====
/-
  The Hamilton product kernel against its reference, over the extended reals.

  Both programs take two arrays of quaternions, of shape [32, 4096, 64, 4] with the four coordinates (w, x, y, z)
  on the last axis, and return the array of their Hamilton products, position by position (Proof/HamiltonSpec.lean).

  The kernel walks a 32 × 32 grid; at each point it loads a [1, 128, 64, 4] block of each argument, takes the eight
  coordinate planes, computes the four coordinates of the product plane against plane and stores them as the four
  slabs of the output block: the block ends as the product of the two input blocks (Proof/KernelBlock.lean). The
  product at a position reads only that position's two quaternions and the blocks tile the result, so the result
  array ends as the product of the argument arrays (Proof/KernelValue.lean).

  The reference slices the eight coordinate planes off the whole arrays, computes the four coordinates plane against
  plane and joins them along the last axis: the same array (Proof/RefValue.lean).

  Each coordinate is a sum of four signed products, and both programs take it from left to right; the two results
  are therefore the same expression of the arguments' entries, and no law of arithmetic — none that would ask the
  entries to be finite — is used. The idealization rewrote no operation, so that conjunct is trivial; the kernel's
  two frames are the generated ones, and the reference's frame is its run with the result dropped.
-/
import proofs.«129684_j32401233281622_1_alg».proof.Defs
import proofs.«129684_j32401233281622_1_alg».proof.Proof.Gen.Kernel
import proofs.«129684_j32401233281622_1_alg».proof.Proof.Gen.Kernel.Skeleton
import proofs.«129684_j32401233281622_1_alg».proof.Proof.Gen.Kernel.Launch
import proofs.«129684_j32401233281622_1_alg».proof.Proof.Gen.Kernel.Points
import proofs.«129684_j32401233281622_1_alg».proof.Proof.Gen.Kernel.Frame
import proofs.«129684_j32401233281622_1_alg».proof.Proof.Gen.KernelIdeal
import proofs.«129684_j32401233281622_1_alg».proof.Proof.Gen.KernelIdeal.Skeleton
import proofs.«129684_j32401233281622_1_alg».proof.Proof.Gen.KernelIdeal.Launch
import proofs.«129684_j32401233281622_1_alg».proof.Proof.Gen.KernelIdeal.Points
import proofs.«129684_j32401233281622_1_alg».proof.Proof.Gen.KernelIdeal.Frame
import proofs.«129684_j32401233281622_1_alg».proof.Proof.Gen.ReferenceIdeal
import proofs.«129684_j32401233281622_1_alg».proof.Proof.Gen.Pre_finite_inputs
import proofs.«129684_j32401233281622_1_alg».proof.Proof.Gen.KernelIdeal.Value
import proofs.«129684_j32401233281622_1_alg».proof.Proof.Gen.ReferenceIdeal.Run
import proofs.«129684_j32401233281622_1_alg».proof.Proof.Gen.ReferenceIdeal.Read
import proofs.«129684_j32401233281622_1_alg».proof.Proof.KernelValue
import proofs.«129684_j32401233281622_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the Hamilton product of those arguments in
    their result array: the kernel's by its blocks, the reference's operation by operation. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
